-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S_ : Shape := ⟨0, ![]⟩
abbrev S128x256 : Shape := ⟨2, ![128, 256]⟩
abbrev S256 : Shape := ⟨1, ![256]⟩
abbrev S256x256 : Shape := ⟨2, ![256, 256]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  reducesTo_S_S_d : S_.ReducesTo [] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg15 : FVec F S128x256 .f32) (main_v67 : IVec S_ 1) : IVec S_ 1 :=
  let main_v68 : FVec F S128x256 .f32 := Host.absf main_arg15
  let main_cst_26 : FVec F S_ .f32 := constant S_ .f32 0x7F800000#32
  let main_v69 : FVec F S128x256 .f32 := broadcastInDim S128x256 ![] bcast_S_S128x256 main_cst_26
  let main_v70 : IVec S128x256 1 := cmpf .olt main_v68 main_v69
  let main_c_27 : IVec S_ 1 := constantI S_ 1 1#1
  let main_v71 : IVec S_ 1 := (fun x v => Host.reduce IntOp.andi x v reducesTo_S128x256_S_d0_1 h_S_) main_v70 main_c_27
  let main_v72 : IVec S_ 1 := andi main_v67 main_v71
  main_v72

def fn_part3 {F : FTy → Type} [FloatOps F] (main_arg12 : FVec F S256 .f32) (main_arg13 : FVec F S256 .f32) (main_arg14 : FVec F S256 .f32) (main_arg15 : FVec F S128x256 .f32) (main_v47 : IVec S_ 1) (main_v50 : IVec S256 1) : IVec S_ 1 :=
  let main_c_19 : IVec S_ 1 := constantI S_ 1 1#1
  let main_v51 : IVec S_ 1 := (fun x v => Host.reduce IntOp.andi x v reducesTo_S256_S_d0 h_S_) main_v50 main_c_19
  let main_v52 : IVec S_ 1 := andi main_v47 main_v51
  let main_v53 : FVec F S256 .f32 := Host.absf main_arg12
  let main_cst_20 : FVec F S_ .f32 := constant S_ .f32 0x7F800000#32
  let main_v54 : FVec F S256 .f32 := broadcastInDim S256 ![] bcast_S_S256 main_cst_20
  let main_v55 : IVec S256 1 := cmpf .olt main_v53 main_v54
  let main_c_21 : IVec S_ 1 := constantI S_ 1 1#1
  let main_v56 : IVec S_ 1 := (fun x v => Host.reduce IntOp.andi x v reducesTo_S256_S_d0 h_S_) main_v55 main_c_21
  let main_v57 : IVec S_ 1 := andi main_v52 main_v56
  let main_v58 : FVec F S256 .f32 := Host.absf main_arg13
  let main_cst_22 : FVec F S_ .f32 := constant S_ .f32 0x7F800000#32
  let main_v59 : FVec F S256 .f32 := broadcastInDim S256 ![] bcast_S_S256 main_cst_22
  let main_v60 : IVec S256 1 := cmpf .olt main_v58 main_v59
  let main_c_23 : IVec S_ 1 := constantI S_ 1 1#1
  let main_v61 : IVec S_ 1 := (fun x v => Host.reduce IntOp.andi x v reducesTo_S256_S_d0 h_S_) main_v60 main_c_23
  let main_v62 : IVec S_ 1 := andi main_v57 main_v61
  let main_v63 : FVec F S256 .f32 := Host.absf main_arg14
  let main_cst_24 : FVec F S_ .f32 := constant S_ .f32 0x7F800000#32
  let main_v64 : FVec F S256 .f32 := broadcastInDim S256 ![] bcast_S_S256 main_cst_24
  let main_v65 : IVec S256 1 := cmpf .olt main_v63 main_v64
  let main_c_25 : IVec S_ 1 := constantI S_ 1 1#1
  let main_v66 : IVec S_ 1 := (fun x v => Host.reduce IntOp.andi x v reducesTo_S256_S_d0 h_S_) main_v65 main_c_25
  let main_v67 : IVec S_ 1 := andi main_v62 main_v66
  fn_part4 (F := F) main_arg15 main_v67

def fn_part2 {F : FTy → Type} [FloatOps F] (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S128x256 .f32) (main_v32 : IVec S_ 1) (main_v33 : FVec F S256 .f32) : IVec S_ 1 :=
  let main_cst_12 : FVec F S_ .f32 := constant S_ .f32 0x7F800000#32
  let main_v34 : FVec F S256 .f32 := broadcastInDim S256 ![] bcast_S_S256 main_cst_12
  let main_v35 : IVec S256 1 := cmpf .olt main_v33 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v32 main_v36
  let main_v38 : FVec F S256x256 .f32 := Host.absf main_arg9
  let main_cst_14 : FVec F S_ .f32 := constant S_ .f32 0x7F800000#32
  let main_v39 : FVec F S256x256 .f32 := broadcastInDim S256x256 ![] bcast_S_S256x256 main_cst_14
  let main_v40 : IVec S256x256 1 := cmpf .olt main_v38 main_v39
  let main_c_15 : IVec S_ 1 := constantI S_ 1 1#1
  let main_v41 : IVec S_ 1 := (fun x v => Host.reduce IntOp.andi x v reducesTo_S256x256_S_d0_1 h_S_) main_v40 main_c_15
  let main_v42 : IVec S_ 1 := andi main_v37 main_v41
  let main_v43 : FVec F S256 .f32 := Host.absf main_arg10
  let main_cst_16 : FVec F S_ .f32 := constant S_ .f32 0x7F800000#32
  let main_v44 : FVec F S256 .f32 := broadcastInDim S256 ![] bcast_S_S256 main_cst_16
  let main_v45 : IVec S256 1 := cmpf .olt main_v43 main_v44
  let main_c_17 : IVec S_ 1 := constantI S_ 1 1#1
  let main_v46 : IVec S_ 1 := (fun x v => Host.reduce IntOp.andi x v reducesTo_S256_S_d0 h_S_) main_v45 main_c_17
  let main_v47 : IVec S_ 1 := andi main_v42 main_v46
  let main_v48 : FVec F S256 .f32 := Host.absf main_arg11
  let main_cst_18 : FVec F S_ .f32 := constant S_ .f32 0x7F800000#32
  let main_v49 : FVec F S256 .f32 := broadcastInDim S256 ![] bcast_S_S256 main_cst_18
  let main_v50 : IVec S256 1 := cmpf .olt main_v48 main_v49
  fn_part3 (F := F) main_arg12 main_arg13 main_arg14 main_arg15 main_v47 main_v50

def fn_part1 {F : FTy → Type} [FloatOps F] (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S128x256 .f32) (main_v12 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v12 main_v16
  let main_v18 : FVec F S256 .f32 := Host.absf main_arg5
  let main_cst_6 : FVec F S_ .f32 := constant S_ .f32 0x7F800000#32
  let main_v19 : FVec F S256 .f32 := broadcastInDim S256 ![] bcast_S_S256 main_cst_6
  let main_v20 : IVec S256 1 := cmpf .olt main_v18 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v17 main_v21
  let main_v23 : FVec F S256 .f32 := Host.absf main_arg6
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S256 .f32 := Host.absf main_arg7
  let main_cst_10 : FVec F S_ .f32 := constant S_ .f32 0x7F800000#32
  let main_v29 : FVec F S256 .f32 := broadcastInDim S256 ![] bcast_S_S256 main_cst_10
  let main_v30 : IVec S256 1 := cmpf .olt main_v28 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v27 main_v31
  let main_v33 : FVec F S256 .f32 := Host.absf main_arg8
  fn_part2 (F := F) main_arg9 main_arg10 main_arg11 main_arg12 main_arg13 main_arg14 main_arg15 main_v32 main_v33

def fn {F : FTy → Type} [FloatOps F] (main_arg0 : FVec F S40000x128 .f32) (main_arg1 : IVec S2x640000 32) (main_arg2 : FVec F S_ .f32) (main_arg3 : FVec F S128x256 .f32) (main_arg4 : FVec F S256 .f32) (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S128x256 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x256 .f32 := Host.absf main_arg3
  let main_cst_2 : FVec F S_ .f32 := constant S_ .f32 0x7F800000#32
  let main_v9 : FVec F S128x256 .f32 := broadcastInDim S128x256 ![] bcast_S_S128x256 main_cst_2
  let main_v10 : IVec S128x256 1 := cmpf .olt main_v8 main_v9
  let main_c_3 : IVec S_ 1 := constantI S_ 1 1#1
  let main_v11 : IVec S_ 1 := (fun x v => Host.reduce IntOp.andi x v reducesTo_S128x256_S_d0_1 h_S_) main_v10 main_c_3
  let main_v12 : IVec S_ 1 := andi main_v7 main_v11
  let main_v13 : FVec F S256 .f32 := Host.absf main_arg4
  let main_cst_4 : FVec F S_ .f32 := constant S_ .f32 0x7F800000#32
  let main_v14 : FVec F S256 .f32 := broadcastInDim S256 ![] bcast_S_S256 main_cst_4
  let main_v15 : IVec S256 1 := cmpf .olt main_v13 main_v14
  let main_c_5 : IVec S_ 1 := constantI S_ 1 1#1
  fn_part1 (F := F) main_arg5 main_arg6 main_arg7 main_arg8 main_arg9 main_arg10 main_arg11 main_arg12 main_arg13 main_arg14 main_arg15 main_v12 main_v15 main_c_5
-- ==== Kernel.lean ====
abbrev S40000x128 : Shape := ⟨2, ![40000, 128]⟩
abbrev S2x640000 : Shape := ⟨2, ![2, 640000]⟩
abbrev S_ : Shape := ⟨0, ![]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S640000x1 : Shape := ⟨2, ![640000, 1]⟩
abbrev S640000x128 : Shape := ⟨2, ![640000, 128]⟩
abbrev S1x1 : Shape := ⟨2, ![1, 1]⟩
abbrev S1x256 : Shape := ⟨2, ![1, 256]⟩
abbrev S40000x256 : Shape := ⟨2, ![40000, 256]⟩
abbrev S4000x128 : Shape := ⟨2, ![4000, 128]⟩
abbrev S4000x256 : Shape := ⟨2, ![4000, 256]⟩

abbrev nBuf : Space → Nat
  | .hbm => 48
  | .vmem => 20
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S_, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S128x256, .f32⟩
  | .hbm, ⟨16, _⟩ => ⟨S1x640000, .i32⟩
  | .hbm, ⟨17, _⟩ => ⟨S640000, .i32⟩
  | .hbm, ⟨18, _⟩ => ⟨S1x640000, .i32⟩
  | .hbm, ⟨19, _⟩ => ⟨S640000, .i32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .f32⟩
  | .hbm, ⟨30, _⟩ => ⟨S40000x128, .f32⟩
  | .hbm, ⟨31, _⟩ => ⟨S640000x1, .i32⟩
  | .hbm, ⟨32, _⟩ => ⟨S40000x128, .f32⟩
  | .hbm, ⟨33, _⟩ => ⟨S1x1, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S128x256, .bf16⟩
  | .hbm, ⟨45, _⟩ => ⟨S256x256, .bf16⟩
  | .hbm, ⟨46, _⟩ => ⟨S128x256, .bf16⟩
  | .hbm, ⟨47, _⟩ => ⟨S40000x256, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S1x1, .f32⟩
  | .local _ .vmem, ⟨5, _⟩ => ⟨S128x256, .bf16⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S128x256, .bf16⟩
  | .local _ .vmem, ⟨18, _⟩ => ⟨S4000x256, .f32⟩
  | .local _ .vmem, ⟨19, _⟩ => ⟨S4000x256, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4000x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S_S1x1 : S_.ShapeCasts S1x1
  shapeCasts_S256_S1x256 : S256.ShapeCasts S1x256
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x128 : S1x1.Broadcasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4000x256_S4000x256_0_0 : ∀ a, (![0, 0] : Fin 2 → Nat) a + S4000x256.size a ≤ S4000x256.size a
  h_S4000x256 : 0 < S4000x256.numel
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x256_S4000x256_1_0_0_1_n_n_wf : DotDims.WF S4000x128 S128x256 S4000x256 [1] [0] [0] [1] [] []
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x256.size a ≤ S128x256.size a
  hwx0_15 : ∀ i : grid0.Coords, EltTy.bits .bf16 = 32 ∨ (Rect.block (s := S128x256) S128x256.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4000x256.size a ≤ S40000x256.size a
  hwx0_16 : ∀ i : grid0.Coords, EltTy.bits .f32 = 32 ∨ (Rect.block (s := S40000x256) S4000x256.size (cc0_transform_16 i) (hinb0_16 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v23) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v24) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27) S128x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v28) S4000x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S_ : Shape := ⟨0, ![]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S640000x1 : Shape := ⟨2, ![640000, 1]⟩
abbrev S640000x128 : Shape := ⟨2, ![640000, 128]⟩
abbrev S40000x256 : Shape := ⟨2, ![40000, 256]⟩
abbrev S1x256 : Shape := ⟨2, ![1, 256]⟩

abbrev nBuf : Space → Nat
  | .hbm => 89
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S_, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S128x256, .f32⟩
  | .hbm, ⟨16, _⟩ => ⟨S1x640000, .i32⟩
  | .hbm, ⟨17, _⟩ => ⟨S640000, .i32⟩
  | .hbm, ⟨18, _⟩ => ⟨S1x640000, .i32⟩
  | .hbm, ⟨19, _⟩ => ⟨S640000, .i32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .f32⟩
  | .hbm, ⟨30, _⟩ => ⟨S40000x128, .f32⟩
  | .hbm, ⟨31, _⟩ => ⟨S640000x1, .i32⟩
  | .hbm, ⟨32, _⟩ => ⟨S40000x128, .f32⟩
  | .hbm, ⟨33, _⟩ => ⟨S_, .f32⟩
  | .hbm, ⟨34, _⟩ => ⟨S_, .f32⟩
  | .hbm, ⟨35, _⟩ => ⟨S40000x128, .f32⟩
  | .hbm, ⟨36, _⟩ => ⟨S40000x128, .f32⟩
  | .hbm, ⟨37, _⟩ => ⟨S40000x128, .f32⟩
  | .hbm, ⟨38, _⟩ => ⟨S40000x256, .f32⟩
  | .hbm, ⟨39, _⟩ => ⟨S1x256, .f32⟩
  | .hbm, ⟨40, _⟩ => ⟨S40000x256, .f32⟩
  | .hbm, ⟨41, _⟩ => ⟨S40000x256, .f32⟩
  | .hbm, ⟨42, _⟩ => ⟨S1x256, .f32⟩
  | .hbm, ⟨43, _⟩ => ⟨S40000x256, .f32⟩
  | .hbm, ⟨44, _⟩ => ⟨S40000x256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S1x256, .f32⟩
  | .hbm, ⟨50, _⟩ => ⟨S40000x256, .f32⟩
  | .hbm, ⟨51, _⟩ => ⟨S40000x256, .f32⟩
  | .hbm, ⟨52, _⟩ => ⟨S1x256, .f32⟩
  | .hbm, ⟨53, _⟩ => ⟨S40000x256, .f32⟩
  | .hbm, ⟨54, _⟩ => ⟨S40000x256, .f32⟩
  | .hbm, ⟨55, _⟩ => ⟨S1x256, .f32⟩
  | .hbm, ⟨56, _⟩ => ⟨S40000x256, .f32⟩
  | .hbm, ⟨57, _⟩ => ⟨S40000x256, .f32⟩
  | .hbm, ⟨58, _⟩ => ⟨S_, .f32⟩
  | .hbm, ⟨59, _⟩ => ⟨S40000x256, .f32⟩
  | .hbm, ⟨60, _⟩ => ⟨S40000x256, .f32⟩
  | .hbm, ⟨61, _⟩ => ⟨S40000x256, .f32⟩
  | .hbm, ⟨62, _⟩ => ⟨S1x256, .f32⟩
  | .hbm, ⟨63, _⟩ => ⟨S40000x256, .f32⟩
  | .hbm, ⟨64, _⟩ => ⟨S40000x256, .f32⟩
  | .hbm, ⟨65, _⟩ => ⟨S1x256, .f32⟩
  | .hbm, ⟨66, _⟩ => ⟨S40000x256, .f32⟩
  | .hbm, ⟨67, _⟩ => ⟨S40000x256, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S256, .f32⟩
  | .hbm, ⟨72, _⟩ => ⟨S1x256, .f32⟩
  | .hbm, ⟨73, _⟩ => ⟨S40000x256, .f32⟩
  | .hbm, ⟨74, _⟩ => ⟨S40000x256, .f32⟩
  | .hbm, ⟨75, _⟩ => ⟨S1x256, .f32⟩
  | .hbm, ⟨76, _⟩ => ⟨S40000x256, .f32⟩
  | .hbm, ⟨77, _⟩ => ⟨S40000x256, .f32⟩
  | .hbm, ⟨78, _⟩ => ⟨S1x256, .f32⟩
  | .hbm, ⟨79, _⟩ => ⟨S40000x256, .f32⟩
  | .hbm, ⟨80, _⟩ => ⟨S40000x256, .f32⟩
  | .hbm, ⟨81, _⟩ => ⟨S_, .f32⟩
  | .hbm, ⟨82, _⟩ => ⟨S40000x256, .f32⟩
  | .hbm, ⟨83, _⟩ => ⟨S40000x256, .f32⟩
  | .hbm, ⟨84, _⟩ => ⟨S40000x256, .f32⟩
  | .hbm, ⟨85, _⟩ => ⟨S40000x256, .f32⟩
  | .hbm, ⟨86, _⟩ => ⟨S_, .f32⟩
  | .hbm, ⟨87, _⟩ => ⟨S40000x256, .f32⟩
  | .hbm, ⟨88, _⟩ => ⟨S40000x256, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call0_cst : Ref sig .tc := ⟨.hbm, 58, rfl⟩
abbrev main_call0_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call2_cst : Ref sig .tc := ⟨.hbm, 86, rfl⟩
abbrev main_call2_v0 : Ref sig .tc := ⟨.hbm, 87, rfl⟩
abbrev main_v60 : Ref sig .tc := ⟨.hbm, 88, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S256 : S_.BroadcastsInDim S256 (![] : Fin 0 → Fin S256.rank)
  bcast_S_S40000x256 : S_.BroadcastsInDim S40000x256 (![] : Fin 0 → Fin S40000x256.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x256_S40000x256_1_0_0_1_n_n_wf : DotDims.WF S40000x128 S128x256 S40000x256 [1] [0] [0] [1] [] []
  dot_S40000x256_S256x256_S40000x256_1_0_0_1_n_n_wf : DotDims.WF S40000x256 S256x256 S40000x256 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf

class Facts : Prop extends Facts₀ where

variable [Facts]
-- ==== Proof.RowSpec.lean ====
/-
  The mathematics both programs compute, one output row at a time, on the extended reals.

  A GIN block sends node features `x` (40000 rows of 128) and the neighbour sums `agg` (same shape) to 40000 rows of 256:
  with `h = (1 + eps) · x + agg`,

      out = relu (layer₂ (layer₁ h) + x · Wres),

  where a layer is a dense product followed by an inference batch-norm and a relu:

      layer (h) q = max (((Σₖ h k · W k q) + b q − μ q) · rsqrt (σ² q + ε) · g q + β q, 0).

  Row `p` of the result depends on row `p` of `x` and of `agg` only (the products contract the feature axis), so the
  whole computation is one function of a ROW of `x`, the matching row of `agg`, and the parameters: `rowOut` below. A row
  block of the kernel and the whole array of the reference are both this function, applied row by row.

  The three float literals (1, the batch-norm ε = f32(1e-5), and 0) are kept as the words both programs print; they are never
  evaluated, because the same word stands on both sides.
-/
import Idealize.ShloMosaic.PureOps.Ideal
import Idealize.ShloMosaic.Lib.ValueIdx

noncomputable section

open scoped BigOperators
open Idealize.ShloMosaic Idealize.ShloMosaic.ValueIdx

namespace Cert.Gin

/-- The literal `1.0`. -/
abbrev one : EReal := Ideal.ofBits .f32 0x3F800000#32
/-- The batch-norm epsilon, the f32 nearest to `1e-5`. -/
abbrev bnEps : EReal := Ideal.ofBits .f32 0x3727C5AC#32
/-- The literal `0.0`, the floor of every relu. -/
abbrev zero : EReal := Ideal.ofBits .f32 0x00000000#32

/-- The parameters of one dense layer from `n` features to 256, with its batch-norm's scale `g`, shift `bt`, running mean
    `mu` and running variance `var`. -/
structure Layer (n : Nat) where
  W : Fin n → Fin 256 → EReal
  b : Fin 256 → EReal
  g : Fin 256 → EReal
  bt : Fin 256 → EReal
  mu : Fin 256 → EReal
  var : Fin 256 → EReal

/-- The batch-norm of a pre-activation `s` in column `q`, before the relu: `(s − μ) · rsqrt (σ² + ε) · g + β`, grouped as both
    programs group it. -/
def Layer.norm {n : Nat} (L : Layer n) (s : EReal) (q : Fin 256) : EReal :=
  (s - L.mu q) * Ideal.rsqrt (L.var q + bnEps) * L.g q + L.bt q

/-- One layer applied to a feature row `h`: product, bias, batch-norm, relu. -/
def Layer.act {n : Nat} (L : Layer n) (h : Fin n → EReal) (q : Fin 256) : EReal :=
  max (L.norm ((∑ k : Fin n, h k * L.W k q) + L.b q) q) zero

/-- The features a node passes to the first layer: its own, scaled by `1 + eps`, plus its neighbours' sum. -/
def mix (eps : EReal) (xr aggr : Fin 128 → EReal) (k : Fin 128) : EReal := (one + eps) * xr k + aggr k

/-- ONE ROW of the block's result: two layers on the mixed features, the residual projection of the node's own features
    added, and the last relu. -/
def rowOut (eps : EReal) (L1 : Layer 128) (L2 : Layer 256) (Wres : Fin 128 → Fin 256 → EReal)
    (xr aggr : Fin 128 → EReal) (q : Fin 256) : EReal :=
  max (L2.act (L1.act (mix eps xr aggr)) q + ∑ k : Fin 128, xr k * Wres k q) zero

/-- A weight matrix `[n, 256]` as a function of its two coordinates. -/
abbrev matOf {n : Nat} (W : (⟨2, ![n, 256]⟩ : Shape).Idx → EReal) : Fin n → Fin 256 → EReal := fun k q => W (ix2 k q)

/-- A per-column parameter held as a one-row matrix `[1, 256]` (the form the kernel stages). -/
abbrev ofRow (v : (⟨2, ![1, 256]⟩ : Shape).Idx → EReal) : Fin 256 → EReal := fun q => v (ix2 (0 : Fin 1) q)

/-- A per-column parameter held as a vector `[256]` (the form the arguments have). -/
abbrev ofVec (v : (⟨1, ![256]⟩ : Shape).Idx → EReal) : Fin 256 → EReal := fun q => v (ix1 q)

/-- A layer from its arrays, the per-column parameters as one-row matrices. -/
abbrev layerOfRows {n : Nat} (W : (⟨2, ![n, 256]⟩ : Shape).Idx → EReal) (b g bt mu var : (⟨2, ![1, 256]⟩ : Shape).Idx → EReal) : Layer n :=
  ⟨matOf W, ofRow b, ofRow g, ofRow bt, ofRow mu, ofRow var⟩

/-- A layer from its arrays, the per-column parameters as vectors. -/
abbrev layerOfVecs {n : Nat} (W : (⟨2, ![n, 256]⟩ : Shape).Idx → EReal) (b g bt mu var : (⟨1, ![256]⟩ : Shape).Idx → EReal) : Layer n :=
  ⟨matOf W, ofVec b, ofVec g, ofVec bt, ofVec mu, ofVec var⟩

/-- Row `p` of a matrix of `R` rows and 128 columns. -/
abbrev rowOf {R : Nat} (x : (⟨2, ![R, 128]⟩ : Shape).Idx → EReal) (p : Fin R) : Fin 128 → EReal := fun k => x (ix2 p k)

/-- THE WHOLE RESULT, for any number of rows `R`: entry `(p, q)` is `rowOut` of row `p` of `x` and of `agg`. -/
def blockOut {R : Nat} (eps : EReal) (L1 : Layer 128) (L2 : Layer 256) (Wres : Fin 128 → Fin 256 → EReal)
    (x agg : (⟨2, ![R, 128]⟩ : Shape).Idx → EReal) : (⟨2, ![R, 256]⟩ : Shape).Idx → EReal :=
  fun j => rowOut eps L1 L2 Wres (rowOf x (j 0)) (rowOf agg (j 0)) (j 1)

end Cert.Gin

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.KernelRow.lean ====
/-
  The kernel body's arithmetic, read at one entry of the output block.

  The body computes a block of 4000 rows from the block of `x`, the block of `agg`, and the (whole) parameter arrays. Its two
  payloads are: the first layer up to its batch-norm (before the relu), and everything after. Read at entry `(r, q)` each is a
  scalar expression in sums over the feature axis: the matrix products into a zero accumulator are those sums, the changes of
  float format are the identity, and a one-row parameter spread down the rows is read at its column. Together they are
  `rowOut` of row `r` of the two input blocks.
-/
import proofs.«174820_j90580860273090_1_alg».proof.Proof.Gen.KernelIdeal.Skeleton
import proofs.«174820_j90580860273090_1_alg».proof.Proof.RowSpec
import proofs.«174820_j90580860273090_1_alg».proof.Proof.LibPlainMatmul
import Idealize.ShloMosaic.Lib.ValueLayout
import Idealize.ShloMosaic.Lib.Pipeline.Value

noncomputable section

open scoped BigOperators
open Idealize.ShloMosaic Idealize.ShloMosaic.ValueIdx

namespace Cert.Gin.KernelRow

open Cert.KernelIdeal Cert.KernelIdeal.Gen

/-- The scalar `1 + eps`, held as a `[1, 1]` matrix, spread over a `[4000, 128]` block: every entry is the one entry. -/
theorem spread11 (v : (⟨2, ![1, 1]⟩ : Shape).Idx → EReal) (h : (⟨2, ![1, 1]⟩ : Shape).Broadcasts ⟨2, ![4000, 128]⟩)
    (r : Fin 4000) (k : Fin 128) : broadcastTo ⟨2, ![4000, 128]⟩ v h (ix2 r k) = v (ix2 (0 : Fin 1) (0 : Fin 1)) := by
  refine broadcastTo_apply v h (ix2 r k) (ix2 (0 : Fin 1) (0 : Fin 1)) fun a => ?_
  match a with
  | ⟨0, _⟩ => rfl
  | ⟨1, _⟩ => rfl

/-- The first payload (the first layer's batch-norm, before its relu) at entry `(r, q)`. -/
theorem pay1_apply (x0 x1 : Vec Ideal S4000x128 .f32) (e : Vec Ideal S1x1 .f32) (w1 : Vec Ideal S128x256 .bf16)
    (b1 m1 v1 g1 bt1 : Vec Ideal S1x256 .f32) (r : Fin 4000) (q : Fin 256) :
    k0_pay1 x0 x1 e w1 b1 m1 v1 g1 bt1 (ix2 r q)
      = (layerOfRows w1 b1 g1 bt1 m1 v1).norm
          ((∑ k : Fin 128, mix (e (ix2 (0 : Fin 1) (0 : Fin 1))) (rowOf x0 r) (rowOf x1 r) k * w1 (ix2 k q)) + b1 (ix2 (0 : Fin 1) q)) q := by
  unfold k0_pay1
  simp only [shapeCast_self, matmul]
  simp only [addf_apply, mulf_apply, subf_apply, Cert.Lib.PlainMatmul.rowSpread_apply,
    Cert.Lib.PlainMatmul.apply dot_S4000x128_S128x256_S4000x256_1_0_0_1_n_n rfl rfl rfl rfl rfl rfl,
    truncf_apply, spread11, broadcast_apply]
  rfl

/-- The second payload (the first layer's relu, the second layer, the residual product, the last relu) at entry `(r, q)`,
    over ANY block `h` handed to it as the first layer's batch-norm. -/
theorem pay2_apply (x0 : Vec Ideal S4000x128 .f32) (h : FVec Ideal S4000x256 .f32) (w2 : Vec Ideal S256x256 .bf16)
    (b2 m2 v2 g2 bt2 : Vec Ideal S1x256 .f32) (wr : Vec Ideal S128x256 .bf16) (r : Fin 4000) (q : Fin 256) :
    k0_pay2 x0 h (Scalar.ofBits (F := Ideal) .f32 0x00000000#32) w2 b2 m2 v2 g2 bt2 wr (ix2 r q)
      = max ((layerOfRows w2 b2 g2 bt2 m2 v2).act (fun k => max (h (ix2 r k)) zero) q
              + ∑ k : Fin 128, x0 (ix2 r k) * wr (ix2 k q)) zero := by
  unfold k0_pay2
  simp only [shapeCast_self, matmul]
  simp only [addf_apply, mulf_apply, subf_apply, maximumf_apply, Cert.Lib.PlainMatmul.rowSpread_apply,
    Cert.Lib.PlainMatmul.apply dot_S4000x256_S256x256_S4000x256_1_0_0_1_n_n rfl rfl rfl rfl rfl rfl,
    Cert.Lib.PlainMatmul.apply dot_S4000x128_S128x256_S4000x256_1_0_0_1_n_n rfl rfl rfl rfl rfl rfl,
    truncf_apply, broadcast_apply]
  rfl

/-- THE BODY'S RESULT at entry `(r, q)` of the output block: `rowOut` of row `r` of the block of `x` and of the block of
    `agg`, with the parameters read off the staged one-row and weight arrays. -/
theorem body_apply (x0 x1 : Vec Ideal S4000x128 .f32) (e : Vec Ideal S1x1 .f32) (w1 : Vec Ideal S128x256 .bf16)
    (b1 m1 v1 g1 bt1 : Vec Ideal S1x256 .f32) (w2 : Vec Ideal S256x256 .bf16) (b2 m2 v2 g2 bt2 : Vec Ideal S1x256 .f32)
    (wr : Vec Ideal S128x256 .bf16) (r : Fin 4000) (q : Fin 256) :
    k0_pay2 x0 (k0_pay1 x0 x1 e w1 b1 m1 v1 g1 bt1) (Scalar.ofBits (F := Ideal) .f32 0x00000000#32) w2 b2 m2 v2 g2 bt2 wr (ix2 r q)
      = rowOut (e (ix2 (0 : Fin 1) (0 : Fin 1))) (layerOfRows w1 b1 g1 bt1 m1 v1) (layerOfRows w2 b2 g2 bt2 m2 v2) (matOf wr)
          (rowOf x0 r) (rowOf x1 r) q := by
  rw [pay2_apply]
  simp only [pay1_apply]
  rfl

end Cert.Gin.KernelRow

end
-- ==== Proof.Agg.lean ====
/-
  The neighbour sums, as both programs compute them on the host before anything else.

  Row `d` of `agg` is the sum of the rows `x[s]` over the edges `(s, d)`: the source indices (a negative one wrapped by
  the row count, as jnp's indexing does) gather rows of `x`, and the gathered rows are scatter-added at the destination
  indices into a zero matrix. Kernel and reference run the SAME host operations here, so nothing about this term is ever
  opened: it is one array, a function of `x` and the edge list, that both sides then feed to the dense part.
-/
import proofs.«174820_j90580860273090_1_alg».proof.Proof.Gen.KernelIdeal
import Idealize.ShloMosaic.PureOps.Ideal

noncomputable section

open Idealize.ShloMosaic

namespace Cert.Gin

open Cert.KernelIdeal Cert.KernelIdeal.Facts₀

/-- The source node of every edge, a negative index wrapped once by the number of rows. -/
def srcIdx (ei : IVec S2x640000 32) : IVec S640000 32 :=
  select (cmpi .slt (shapeCast _ (extractStridedSlice S1x640000 ![0, 0] ei slices_S2x640000_S1x640000_0_0) shapeCasts_S1x640000_S640000) (broadcastInDim S640000 ![] bcast_S_S640000 (constantI S_ 32 0#32)))
    (addi (shapeCast _ (extractStridedSlice S1x640000 ![0, 0] ei slices_S2x640000_S1x640000_0_0) shapeCasts_S1x640000_S640000) (broadcastInDim S640000 ![] bcast_S_S640000 (constantI S_ 32 40000#32)))
    (shapeCast _ (extractStridedSlice S1x640000 ![0, 0] ei slices_S2x640000_S1x640000_0_0) shapeCasts_S1x640000_S640000)

/-- The neighbour sums: rows of `x` gathered at the edges' sources, scatter-added at the edges' destinations into zeros. -/
def agg (x : FVec Ideal S40000x128 .f32) (ei : IVec S2x640000 32) : FVec Ideal S40000x128 .f32 :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 (shapeCast _ (extractStridedSlice S1x640000 ![1, 0] ei slices_S2x640000_S1x640000_1_0) shapeCasts_S1x640000_S640000))
    (Host.gather gather_S40000x128_S640000x1_S640000x128_1_0_n_n_0_1_1128 x (broadcastInDim S640000x1 ![0] bcast_S640000_S640000x1_0 (srcIdx ei)))

end Cert.Gin

end
-- ==== Proof.KernelArr.lean ====
/-
  What the kernel's region is given: the arrays it stages, and where each grid point's blocks sit in them.

  The arrays are the arguments after the host operations in front of the region: the neighbour sums (left whole), the scalar
  `eps` reshaped to `[1, 1]`, each parameter vector reshaped to one row, each weight matrix converted to the narrower float
  format (the identity on extended reals).

  The region runs ten grid points. Point `t` stages rows `4000 t … 4000 t + 3999` of `x` and of the neighbour sums and writes
  back the same rows of the result; every parameter window stays at its array's one block. The index maps are decided over
  the ten points, and from them entry `(r, k)` of a row block is entry `(4000 t + r, k)` of its array, while a parameter block's
  entry is the array's own.
-/
import proofs.«174820_j90580860273090_1_alg».proof.Proof.Gen.KernelIdeal.Value
import proofs.«174820_j90580860273090_1_alg».proof.Proof.KernelRow
import proofs.«174820_j90580860273090_1_alg».proof.Proof.Agg
import Idealize.ShloMosaic.Lib.StableHlo.Run
import Idealize.ShloMosaic.Lib.ValueLayout

noncomputable section

open scoped BigOperators
open Idealize.ShloMosaic Idealize.ShloMosaic.TcCoe Idealize.SL.Sem Idealize.ShloMosaic.ValueIdx Idealize.ShloMosaic.StableHlo

namespace Cert.Gin.KernelArr

open Cert.KernelIdeal Cert.KernelIdeal.Gen Cert.KernelIdeal.Facts₀
open Idealize.ShloMosaic.Pipeline (Dat)

variable (m : (ℓ : Loc nD τ sig) → Buf (Elt Ideal) ℓ)

/-! ## The staged arrays, as the region finds them -/

/-- The neighbour sums. -/
theorem V_agg (c : Dev nD) : (V m c main_v13 : S40000x128.Idx → EReal)
    = agg (m ((c : Thread nD τ).loc main_arg0)) (m ((c : Thread nD τ).loc main_arg1)) := by
  dsimp only [Gen.V, Gen.hostOps0]; after_results_simp <;> rfl

/-- `eps` as a `[1, 1]` matrix. -/
theorem V_eps (c : Dev nD) : (V m c main_v14 : S1x1.Idx → EReal)
    = shapeCast S1x1 (m ((c : Thread nD τ).loc main_arg2)) Facts₀.shapeCasts_S_S1x1 := by
  dsimp only [Gen.V, Gen.hostOps0]; after_results_simp <;> rfl

/-! Each per-column parameter as one row. -/
theorem V_row4 (c : Dev nD) : (V m c main_v15 : S1x256.Idx → EReal)
    = shapeCast S1x256 (m ((c : Thread nD τ).loc main_arg4)) Facts₀.shapeCasts_S256_S1x256 := by
  dsimp only [Gen.V, Gen.hostOps0]; after_results_simp <;> rfl
theorem V_row5 (c : Dev nD) : (V m c main_v16 : S1x256.Idx → EReal)
    = shapeCast S1x256 (m ((c : Thread nD τ).loc main_arg5)) Facts₀.shapeCasts_S256_S1x256 := by
  dsimp only [Gen.V, Gen.hostOps0]; after_results_simp <;> rfl
theorem V_row6 (c : Dev nD) : (V m c main_v17 : S1x256.Idx → EReal)
    = shapeCast S1x256 (m ((c : Thread nD τ).loc main_arg6)) Facts₀.shapeCasts_S256_S1x256 := by
  dsimp only [Gen.V, Gen.hostOps0]; after_results_simp <;> rfl
theorem V_row7 (c : Dev nD) : (V m c main_v18 : S1x256.Idx → EReal)
    = shapeCast S1x256 (m ((c : Thread nD τ).loc main_arg7)) Facts₀.shapeCasts_S256_S1x256 := by
  dsimp only [Gen.V, Gen.hostOps0]; after_results_simp <;> rfl
theorem V_row8 (c : Dev nD) : (V m c main_v19 : S1x256.Idx → EReal)
    = shapeCast S1x256 (m ((c : Thread nD τ).loc main_arg8)) Facts₀.shapeCasts_S256_S1x256 := by
  dsimp only [Gen.V, Gen.hostOps0]; after_results_simp <;> rfl
theorem V_row10 (c : Dev nD) : (V m c main_v20 : S1x256.Idx → EReal)
    = shapeCast S1x256 (m ((c : Thread nD τ).loc main_arg10)) Facts₀.shapeCasts_S256_S1x256 := by
  dsimp only [Gen.V, Gen.hostOps0]; after_results_simp <;> rfl
theorem V_row11 (c : Dev nD) : (V m c main_v21 : S1x256.Idx → EReal)
    = shapeCast S1x256 (m ((c : Thread nD τ).loc main_arg11)) Facts₀.shapeCasts_S256_S1x256 := by
  dsimp only [Gen.V, Gen.hostOps0]; after_results_simp <;> rfl
theorem V_row12 (c : Dev nD) : (V m c main_v22 : S1x256.Idx → EReal)
    = shapeCast S1x256 (m ((c : Thread nD τ).loc main_arg12)) Facts₀.shapeCasts_S256_S1x256 := by
  dsimp only [Gen.V, Gen.hostOps0]; after_results_simp <;> rfl
theorem V_row13 (c : Dev nD) : (V m c main_v23 : S1x256.Idx → EReal)
    = shapeCast S1x256 (m ((c : Thread nD τ).loc main_arg13)) Facts₀.shapeCasts_S256_S1x256 := by
  dsimp only [Gen.V, Gen.hostOps0]; after_results_simp <;> rfl
theorem V_row14 (c : Dev nD) : (V m c main_v24 : S1x256.Idx → EReal)
    = shapeCast S1x256 (m ((c : Thread nD τ).loc main_arg14)) Facts₀.shapeCasts_S256_S1x256 := by
  dsimp only [Gen.V, Gen.hostOps0]; after_results_simp <;> rfl

/-! Each weight matrix in the narrower float format: the same extended reals. -/
theorem V_w3 (c : Dev nD) : (V m c main_v25 : S128x256.Idx → EReal)
    = (m ((c : Thread nD τ).loc main_arg3) : S128x256.Idx → EReal) := by
  dsimp only [Gen.V, Gen.hostOps0]; after_results_simp <;> rfl
theorem V_w9 (c : Dev nD) : (V m c main_v26 : S256x256.Idx → EReal)
    = (m ((c : Thread nD τ).loc main_arg9) : S256x256.Idx → EReal) := by
  dsimp only [Gen.V, Gen.hostOps0]; after_results_simp <;> rfl
theorem V_w15 (c : Dev nD) : (V m c main_v27 : S128x256.Idx → EReal)
    = (m ((c : Thread nD τ).loc main_arg15) : S128x256.Idx → EReal) := by
  dsimp only [Gen.V, Gen.hostOps0]; after_results_simp <;> rfl

/-! ## The index maps, decided over the ten grid points -/

/-- Point `t` takes block row `t`, block column 0, of `x`. -/
theorem idx_x : ∀ t : Fin cfg0.N, win0_0.index t (0 : Fin 2) = t.val ∧ win0_0.index t (1 : Fin 2) = 0 :=
  (by decide +kernel : ∀ t : Fin grid0.N, _)
/-- The same of the neighbour sums. -/
theorem idx_agg : ∀ t : Fin cfg0.N, win0_1.index t (0 : Fin 2) = t.val ∧ win0_1.index t (1 : Fin 2) = 0 :=
  (by decide +kernel : ∀ t : Fin grid0.N, _)
/-- The same of the result. -/
theorem idx_out : ∀ t : Fin cfg0.N, win0_16.index t (0 : Fin 2) = t.val ∧ win0_16.index t (1 : Fin 2) = 0 :=
  (by decide +kernel : ∀ t : Fin grid0.N, _)
/-- Parameter window 2 stays at block (0, 0). -/
theorem idx_p2 : ∀ t : Fin cfg0.N, win0_2.index t (0 : Fin 2) = 0 ∧ win0_2.index t (1 : Fin 2) = 0 :=
  (by decide +kernel : ∀ t : Fin grid0.N, _)
/-- Parameter window 3 stays at block (0, 0). -/
theorem idx_p3 : ∀ t : Fin cfg0.N, win0_3.index t (0 : Fin 2) = 0 ∧ win0_3.index t (1 : Fin 2) = 0 :=
  (by decide +kernel : ∀ t : Fin grid0.N, _)
/-- Parameter window 4 stays at block (0, 0). -/
theorem idx_p4 : ∀ t : Fin cfg0.N, win0_4.index t (0 : Fin 2) = 0 ∧ win0_4.index t (1 : Fin 2) = 0 :=
  (by decide +kernel : ∀ t : Fin grid0.N, _)
/-- Parameter window 5 stays at block (0, 0). -/
theorem idx_p5 : ∀ t : Fin cfg0.N, win0_5.index t (0 : Fin 2) = 0 ∧ win0_5.index t (1 : Fin 2) = 0 :=
  (by decide +kernel : ∀ t : Fin grid0.N, _)
/-- Parameter window 6 stays at block (0, 0). -/
theorem idx_p6 : ∀ t : Fin cfg0.N, win0_6.index t (0 : Fin 2) = 0 ∧ win0_6.index t (1 : Fin 2) = 0 :=
  (by decide +kernel : ∀ t : Fin grid0.N, _)
/-- Parameter window 7 stays at block (0, 0). -/
theorem idx_p7 : ∀ t : Fin cfg0.N, win0_7.index t (0 : Fin 2) = 0 ∧ win0_7.index t (1 : Fin 2) = 0 :=
  (by decide +kernel : ∀ t : Fin grid0.N, _)
/-- Parameter window 8 stays at block (0, 0). -/
theorem idx_p8 : ∀ t : Fin cfg0.N, win0_8.index t (0 : Fin 2) = 0 ∧ win0_8.index t (1 : Fin 2) = 0 :=
  (by decide +kernel : ∀ t : Fin grid0.N, _)
/-- Parameter window 9 stays at block (0, 0). -/
theorem idx_p9 : ∀ t : Fin cfg0.N, win0_9.index t (0 : Fin 2) = 0 ∧ win0_9.index t (1 : Fin 2) = 0 :=
  (by decide +kernel : ∀ t : Fin grid0.N, _)
/-- Parameter window 10 stays at block (0, 0). -/
theorem idx_p10 : ∀ t : Fin cfg0.N, win0_10.index t (0 : Fin 2) = 0 ∧ win0_10.index t (1 : Fin 2) = 0 :=
  (by decide +kernel : ∀ t : Fin grid0.N, _)
/-- Parameter window 11 stays at block (0, 0). -/
theorem idx_p11 : ∀ t : Fin cfg0.N, win0_11.index t (0 : Fin 2) = 0 ∧ win0_11.index t (1 : Fin 2) = 0 :=
  (by decide +kernel : ∀ t : Fin grid0.N, _)
/-- Parameter window 12 stays at block (0, 0). -/
theorem idx_p12 : ∀ t : Fin cfg0.N, win0_12.index t (0 : Fin 2) = 0 ∧ win0_12.index t (1 : Fin 2) = 0 :=
  (by decide +kernel : ∀ t : Fin grid0.N, _)
/-- Parameter window 13 stays at block (0, 0). -/
theorem idx_p13 : ∀ t : Fin cfg0.N, win0_13.index t (0 : Fin 2) = 0 ∧ win0_13.index t (1 : Fin 2) = 0 :=
  (by decide +kernel : ∀ t : Fin grid0.N, _)
/-- Parameter window 14 stays at block (0, 0). -/
theorem idx_p14 : ∀ t : Fin cfg0.N, win0_14.index t (0 : Fin 2) = 0 ∧ win0_14.index t (1 : Fin 2) = 0 :=
  (by decide +kernel : ∀ t : Fin grid0.N, _)
/-- Parameter window 15 stays at block (0, 0). -/
theorem idx_p15 : ∀ t : Fin cfg0.N, win0_15.index t (0 : Fin 2) = 0 ∧ win0_15.index t (1 : Fin 2) = 0 :=
  (by decide +kernel : ∀ t : Fin grid0.N, _)

/-- The array row that row `r` of point `t`'s block is. -/
def row (t : Fin cfg0.N) (r : Fin 4000) : Fin 40000 :=
  ⟨t.val * 4000 + r.val, by have h : t.val < grid0.N := t.isLt; rw [N_0] at h; have := r.isLt; omega⟩

/-! ## Where a block's entry sits in its array -/

/-- Entry `(r, k)` of point `t`'s block of `x` is entry `(row t r, k)` of `x`. -/
theorem emb_x (t : Fin cfg0.N) (r : Fin 4000) (k : Fin 128) :
    ((cfg0.win 0).blk t).view.emb (ix2 r k) = ix2 (row t r) k := by
  obtain ⟨e0, e1⟩ := idx_x t
  funext a; apply Fin.ext
  match a with
  | ⟨0, _⟩ => show win0_0.index t (0 : Fin 2) * 4000 + 1 * r.val = t.val * 4000 + r.val; rw [e0]; omega
  | ⟨1, _⟩ => show win0_0.index t (1 : Fin 2) * 128 + 1 * k.val = k.val; rw [e1]; omega

/-- The same of the neighbour sums. -/
theorem emb_agg (t : Fin cfg0.N) (r : Fin 4000) (k : Fin 128) :
    ((cfg0.win 1).blk t).view.emb (ix2 r k) = ix2 (row t r) k := by
  obtain ⟨e0, e1⟩ := idx_agg t
  funext a; apply Fin.ext
  match a with
  | ⟨0, _⟩ => show win0_1.index t (0 : Fin 2) * 4000 + 1 * r.val = t.val * 4000 + r.val; rw [e0]; omega
  | ⟨1, _⟩ => show win0_1.index t (1 : Fin 2) * 128 + 1 * k.val = k.val; rw [e1]; omega

/-- Entry `(r, q)` of point `t`'s block of the result is entry `(row t r, q)` of the result. -/
theorem emb_out (t : Fin cfg0.N) (r : Fin 4000) (q : Fin 256) :
    ((cfg0.win 16).blk t).view.emb (ix2 r q) = ix2 (row t r) q := by
  obtain ⟨e0, e1⟩ := idx_out t
  funext a; apply Fin.ext
  match a with
  | ⟨0, _⟩ => show win0_16.index t (0 : Fin 2) * 4000 + 1 * r.val = t.val * 4000 + r.val; rw [e0]; omega
  | ⟨1, _⟩ => show win0_16.index t (1 : Fin 2) * 256 + 1 * q.val = q.val; rw [e1]; omega

/-- A parameter block is its whole array: window 2. -/
theorem emb_p2 (t : Fin cfg0.N) (a0 : Fin 1) (a1 : Fin 1) :
    ((cfg0.win 2).blk t).view.emb (ix2 a0 a1) = ix2 a0 a1 := by
  obtain ⟨e0, e1⟩ := idx_p2 t
  funext a; apply Fin.ext
  match a with
  | ⟨0, _⟩ => show win0_2.index t (0 : Fin 2) * 1 + 1 * a0.val = a0.val; rw [e0]; omega
  | ⟨1, _⟩ => show win0_2.index t (1 : Fin 2) * 1 + 1 * a1.val = a1.val; rw [e1]; omega
/-- A parameter block is its whole array: window 3. -/
theorem emb_p3 (t : Fin cfg0.N) (a0 : Fin 128) (a1 : Fin 256) :
    ((cfg0.win 3).blk t).view.emb (ix2 a0 a1) = ix2 a0 a1 := by
  obtain ⟨e0, e1⟩ := idx_p3 t
  funext a; apply Fin.ext
  match a with
  | ⟨0, _⟩ => show win0_3.index t (0 : Fin 2) * 128 + 1 * a0.val = a0.val; rw [e0]; omega
  | ⟨1, _⟩ => show win0_3.index t (1 : Fin 2) * 256 + 1 * a1.val = a1.val; rw [e1]; omega
/-- A parameter block is its whole array: window 4. -/
theorem emb_p4 (t : Fin cfg0.N) (a0 : Fin 1) (a1 : Fin 256) :
    ((cfg0.win 4).blk t).view.emb (ix2 a0 a1) = ix2 a0 a1 := by
  obtain ⟨e0, e1⟩ := idx_p4 t
  funext a; apply Fin.ext
  match a with
  | ⟨0, _⟩ => show win0_4.index t (0 : Fin 2) * 1 + 1 * a0.val = a0.val; rw [e0]; omega
  | ⟨1, _⟩ => show win0_4.index t (1 : Fin 2) * 256 + 1 * a1.val = a1.val; rw [e1]; omega
/-- A parameter block is its whole array: window 5. -/
theorem emb_p5 (t : Fin cfg0.N) (a0 : Fin 1) (a1 : Fin 256) :
    ((cfg0.win 5).blk t).view.emb (ix2 a0 a1) = ix2 a0 a1 := by
  obtain ⟨e0, e1⟩ := idx_p5 t
  funext a; apply Fin.ext
  match a with
  | ⟨0, _⟩ => show win0_5.index t (0 : Fin 2) * 1 + 1 * a0.val = a0.val; rw [e0]; omega
  | ⟨1, _⟩ => show win0_5.index t (1 : Fin 2) * 256 + 1 * a1.val = a1.val; rw [e1]; omega
/-- A parameter block is its whole array: window 6. -/
theorem emb_p6 (t : Fin cfg0.N) (a0 : Fin 1) (a1 : Fin 256) :
    ((cfg0.win 6).blk t).view.emb (ix2 a0 a1) = ix2 a0 a1 := by
  obtain ⟨e0, e1⟩ := idx_p6 t
  funext a; apply Fin.ext
  match a with
  | ⟨0, _⟩ => show win0_6.index t (0 : Fin 2) * 1 + 1 * a0.val = a0.val; rw [e0]; omega
  | ⟨1, _⟩ => show win0_6.index t (1 : Fin 2) * 256 + 1 * a1.val = a1.val; rw [e1]; omega
/-- A parameter block is its whole array: window 7. -/
theorem emb_p7 (t : Fin cfg0.N) (a0 : Fin 1) (a1 : Fin 256) :
    ((cfg0.win 7).blk t).view.emb (ix2 a0 a1) = ix2 a0 a1 := by
  obtain ⟨e0, e1⟩ := idx_p7 t
  funext a; apply Fin.ext
  match a with
  | ⟨0, _⟩ => show win0_7.index t (0 : Fin 2) * 1 + 1 * a0.val = a0.val; rw [e0]; omega
  | ⟨1, _⟩ => show win0_7.index t (1 : Fin 2) * 256 + 1 * a1.val = a1.val; rw [e1]; omega
/-- A parameter block is its whole array: window 8. -/
theorem emb_p8 (t : Fin cfg0.N) (a0 : Fin 1) (a1 : Fin 256) :
    ((cfg0.win 8).blk t).view.emb (ix2 a0 a1) = ix2 a0 a1 := by
  obtain ⟨e0, e1⟩ := idx_p8 t
  funext a; apply Fin.ext
  match a with
  | ⟨0, _⟩ => show win0_8.index t (0 : Fin 2) * 1 + 1 * a0.val = a0.val; rw [e0]; omega
  | ⟨1, _⟩ => show win0_8.index t (1 : Fin 2) * 256 + 1 * a1.val = a1.val; rw [e1]; omega
/-- A parameter block is its whole array: window 9. -/
theorem emb_p9 (t : Fin cfg0.N) (a0 : Fin 256) (a1 : Fin 256) :
    ((cfg0.win 9).blk t).view.emb (ix2 a0 a1) = ix2 a0 a1 := by
  obtain ⟨e0, e1⟩ := idx_p9 t
  funext a; apply Fin.ext
  match a with
  | ⟨0, _⟩ => show win0_9.index t (0 : Fin 2) * 256 + 1 * a0.val = a0.val; rw [e0]; omega
  | ⟨1, _⟩ => show win0_9.index t (1 : Fin 2) * 256 + 1 * a1.val = a1.val; rw [e1]; omega
/-- A parameter block is its whole array: window 10. -/
theorem emb_p10 (t : Fin cfg0.N) (a0 : Fin 1) (a1 : Fin 256) :
    ((cfg0.win 10).blk t).view.emb (ix2 a0 a1) = ix2 a0 a1 := by
  obtain ⟨e0, e1⟩ := idx_p10 t
  funext a; apply Fin.ext
  match a with
  | ⟨0, _⟩ => show win0_10.index t (0 : Fin 2) * 1 + 1 * a0.val = a0.val; rw [e0]; omega
  | ⟨1, _⟩ => show win0_10.index t (1 : Fin 2) * 256 + 1 * a1.val = a1.val; rw [e1]; omega
/-- A parameter block is its whole array: window 11. -/
theorem emb_p11 (t : Fin cfg0.N) (a0 : Fin 1) (a1 : Fin 256) :
    ((cfg0.win 11).blk t).view.emb (ix2 a0 a1) = ix2 a0 a1 := by
  obtain ⟨e0, e1⟩ := idx_p11 t
  funext a; apply Fin.ext
  match a with
  | ⟨0, _⟩ => show win0_11.index t (0 : Fin 2) * 1 + 1 * a0.val = a0.val; rw [e0]; omega
  | ⟨1, _⟩ => show win0_11.index t (1 : Fin 2) * 256 + 1 * a1.val = a1.val; rw [e1]; omega
/-- A parameter block is its whole array: window 12. -/
theorem emb_p12 (t : Fin cfg0.N) (a0 : Fin 1) (a1 : Fin 256) :
    ((cfg0.win 12).blk t).view.emb (ix2 a0 a1) = ix2 a0 a1 := by
  obtain ⟨e0, e1⟩ := idx_p12 t
  funext a; apply Fin.ext
  match a with
  | ⟨0, _⟩ => show win0_12.index t (0 : Fin 2) * 1 + 1 * a0.val = a0.val; rw [e0]; omega
  | ⟨1, _⟩ => show win0_12.index t (1 : Fin 2) * 256 + 1 * a1.val = a1.val; rw [e1]; omega
/-- A parameter block is its whole array: window 13. -/
theorem emb_p13 (t : Fin cfg0.N) (a0 : Fin 1) (a1 : Fin 256) :
    ((cfg0.win 13).blk t).view.emb (ix2 a0 a1) = ix2 a0 a1 := by
  obtain ⟨e0, e1⟩ := idx_p13 t
  funext a; apply Fin.ext
  match a with
  | ⟨0, _⟩ => show win0_13.index t (0 : Fin 2) * 1 + 1 * a0.val = a0.val; rw [e0]; omega
  | ⟨1, _⟩ => show win0_13.index t (1 : Fin 2) * 256 + 1 * a1.val = a1.val; rw [e1]; omega
/-- A parameter block is its whole array: window 14. -/
theorem emb_p14 (t : Fin cfg0.N) (a0 : Fin 1) (a1 : Fin 256) :
    ((cfg0.win 14).blk t).view.emb (ix2 a0 a1) = ix2 a0 a1 := by
  obtain ⟨e0, e1⟩ := idx_p14 t
  funext a; apply Fin.ext
  match a with
  | ⟨0, _⟩ => show win0_14.index t (0 : Fin 2) * 1 + 1 * a0.val = a0.val; rw [e0]; omega
  | ⟨1, _⟩ => show win0_14.index t (1 : Fin 2) * 256 + 1 * a1.val = a1.val; rw [e1]; omega
/-- A parameter block is its whole array: window 15. -/
theorem emb_p15 (t : Fin cfg0.N) (a0 : Fin 128) (a1 : Fin 256) :
    ((cfg0.win 15).blk t).view.emb (ix2 a0 a1) = ix2 a0 a1 := by
  obtain ⟨e0, e1⟩ := idx_p15 t
  funext a; apply Fin.ext
  match a with
  | ⟨0, _⟩ => show win0_15.index t (0 : Fin 2) * 128 + 1 * a0.val = a0.val; rw [e0]; omega
  | ⟨1, _⟩ => show win0_15.index t (1 : Fin 2) * 256 + 1 * a1.val = a1.val; rw [e1]; omega

end Cert.Gin.KernelArr

end
-- ==== Proof.KernelBlocks.lean ====
/-
  The kernel's staged blocks, read at an entry.

  Point `t`'s block of `x`, of the neighbour sums and of the result is rows `4000 t …` of the array; every parameter block is
  its whole array. These are facts about the windows alone, so they are stated for ANY contents of the array. The arrays the
  region actually finds are then the arguments reshaped (a vector as one row, the scalar as a `[1, 1]` matrix) or converted to
  the narrower float format, which changes no extended real: each staged entry is an entry of an argument.
-/
import proofs.«174820_j90580860273090_1_alg».proof.Proof.KernelArr

noncomputable section

open scoped BigOperators
open Idealize.ShloMosaic Idealize.ShloMosaic.TcCoe Idealize.SL.Sem Idealize.ShloMosaic.ValueIdx Idealize.ShloMosaic.StableHlo

namespace Cert.Gin.KernelBlocks

open Cert.KernelIdeal Cert.KernelIdeal.Gen Cert.KernelIdeal.Facts₀ Cert.Gin.KernelArr
open Idealize.ShloMosaic.Pipeline (Dat)

/-! ## A window's block of any array -/

/-- Rows `4000 t …` of a `[40000, 128]` array through window 0. -/
theorem rd_x (A : S40000x128.Idx → EReal) (t : Fin cfg0.N) (r : Fin 4000) (k : Fin 128) :
    ((cfg0.win 0).blk t).view.read (Elt Ideal) A (ix2 r k) = A (ix2 (row t r) k) := by
  show A (((cfg0.win 0).blk t).view.emb (ix2 r k)) = _
  rw [emb_x]

/-- The same through window 1. -/
theorem rd_agg (A : S40000x128.Idx → EReal) (t : Fin cfg0.N) (r : Fin 4000) (k : Fin 128) :
    ((cfg0.win 1).blk t).view.read (Elt Ideal) A (ix2 r k) = A (ix2 (row t r) k) := by
  show A (((cfg0.win 1).blk t).view.emb (ix2 r k)) = _
  rw [emb_agg]

/-- Rows `4000 t …` of a `[40000, 256]` array through the result's window. -/
theorem rd_out (A : S40000x256.Idx → EReal) (t : Fin cfg0.N) (r : Fin 4000) (q : Fin 256) :
    ((cfg0.win 16).blk t).view.read (Elt Ideal) A (ix2 r q) = A (ix2 (row t r) q) := by
  show A (((cfg0.win 16).blk t).view.emb (ix2 r q)) = _
  rw [emb_out]

/-- The result's window is never cut short: what a point writes back of a block `X` is `X`. -/
theorem cut_out (X : S4000x256.Idx → EReal) (t : Fin cfg0.N) (r : Fin 4000) (q : Fin 256) :
    (cfg0.win 16).cut (grid0.coords t) X (ix2 r q) = X (ix2 r q) := rfl

/-- A parameter window reads its whole array: window 2. -/
theorem rd_p2 (A : S1x1.Idx → EReal) (t : Fin cfg0.N) (a0 : Fin 1) (a1 : Fin 1) :
    ((cfg0.win 2).blk t).view.read (Elt Ideal) A (ix2 a0 a1) = A (ix2 a0 a1) := by
  show A (((cfg0.win 2).blk t).view.emb (ix2 a0 a1)) = _
  rw [emb_p2]
/-- A parameter window reads its whole array: window 3. -/
theorem rd_p3 (A : S128x256.Idx → EReal) (t : Fin cfg0.N) (a0 : Fin 128) (a1 : Fin 256) :
    ((cfg0.win 3).blk t).view.read (Elt Ideal) A (ix2 a0 a1) = A (ix2 a0 a1) := by
  show A (((cfg0.win 3).blk t).view.emb (ix2 a0 a1)) = _
  rw [emb_p3]
/-- A parameter window reads its whole array: window 4. -/
theorem rd_p4 (A : S1x256.Idx → EReal) (t : Fin cfg0.N) (a0 : Fin 1) (a1 : Fin 256) :
    ((cfg0.win 4).blk t).view.read (Elt Ideal) A (ix2 a0 a1) = A (ix2 a0 a1) := by
  show A (((cfg0.win 4).blk t).view.emb (ix2 a0 a1)) = _
  rw [emb_p4]
/-- A parameter window reads its whole array: window 5. -/
theorem rd_p5 (A : S1x256.Idx → EReal) (t : Fin cfg0.N) (a0 : Fin 1) (a1 : Fin 256) :
    ((cfg0.win 5).blk t).view.read (Elt Ideal) A (ix2 a0 a1) = A (ix2 a0 a1) := by
  show A (((cfg0.win 5).blk t).view.emb (ix2 a0 a1)) = _
  rw [emb_p5]
/-- A parameter window reads its whole array: window 6. -/
theorem rd_p6 (A : S1x256.Idx → EReal) (t : Fin cfg0.N) (a0 : Fin 1) (a1 : Fin 256) :
    ((cfg0.win 6).blk t).view.read (Elt Ideal) A (ix2 a0 a1) = A (ix2 a0 a1) := by
  show A (((cfg0.win 6).blk t).view.emb (ix2 a0 a1)) = _
  rw [emb_p6]
/-- A parameter window reads its whole array: window 7. -/
theorem rd_p7 (A : S1x256.Idx → EReal) (t : Fin cfg0.N) (a0 : Fin 1) (a1 : Fin 256) :
    ((cfg0.win 7).blk t).view.read (Elt Ideal) A (ix2 a0 a1) = A (ix2 a0 a1) := by
  show A (((cfg0.win 7).blk t).view.emb (ix2 a0 a1)) = _
  rw [emb_p7]
/-- A parameter window reads its whole array: window 8. -/
theorem rd_p8 (A : S1x256.Idx → EReal) (t : Fin cfg0.N) (a0 : Fin 1) (a1 : Fin 256) :
    ((cfg0.win 8).blk t).view.read (Elt Ideal) A (ix2 a0 a1) = A (ix2 a0 a1) := by
  show A (((cfg0.win 8).blk t).view.emb (ix2 a0 a1)) = _
  rw [emb_p8]
/-- A parameter window reads its whole array: window 9. -/
theorem rd_p9 (A : S256x256.Idx → EReal) (t : Fin cfg0.N) (a0 : Fin 256) (a1 : Fin 256) :
    ((cfg0.win 9).blk t).view.read (Elt Ideal) A (ix2 a0 a1) = A (ix2 a0 a1) := by
  show A (((cfg0.win 9).blk t).view.emb (ix2 a0 a1)) = _
  rw [emb_p9]
/-- A parameter window reads its whole array: window 10. -/
theorem rd_p10 (A : S1x256.Idx → EReal) (t : Fin cfg0.N) (a0 : Fin 1) (a1 : Fin 256) :
    ((cfg0.win 10).blk t).view.read (Elt Ideal) A (ix2 a0 a1) = A (ix2 a0 a1) := by
  show A (((cfg0.win 10).blk t).view.emb (ix2 a0 a1)) = _
  rw [emb_p10]
/-- A parameter window reads its whole array: window 11. -/
theorem rd_p11 (A : S1x256.Idx → EReal) (t : Fin cfg0.N) (a0 : Fin 1) (a1 : Fin 256) :
    ((cfg0.win 11).blk t).view.read (Elt Ideal) A (ix2 a0 a1) = A (ix2 a0 a1) := by
  show A (((cfg0.win 11).blk t).view.emb (ix2 a0 a1)) = _
  rw [emb_p11]
/-- A parameter window reads its whole array: window 12. -/
theorem rd_p12 (A : S1x256.Idx → EReal) (t : Fin cfg0.N) (a0 : Fin 1) (a1 : Fin 256) :
    ((cfg0.win 12).blk t).view.read (Elt Ideal) A (ix2 a0 a1) = A (ix2 a0 a1) := by
  show A (((cfg0.win 12).blk t).view.emb (ix2 a0 a1)) = _
  rw [emb_p12]
/-- A parameter window reads its whole array: window 13. -/
theorem rd_p13 (A : S1x256.Idx → EReal) (t : Fin cfg0.N) (a0 : Fin 1) (a1 : Fin 256) :
    ((cfg0.win 13).blk t).view.read (Elt Ideal) A (ix2 a0 a1) = A (ix2 a0 a1) := by
  show A (((cfg0.win 13).blk t).view.emb (ix2 a0 a1)) = _
  rw [emb_p13]
/-- A parameter window reads its whole array: window 14. -/
theorem rd_p14 (A : S1x256.Idx → EReal) (t : Fin cfg0.N) (a0 : Fin 1) (a1 : Fin 256) :
    ((cfg0.win 14).blk t).view.read (Elt Ideal) A (ix2 a0 a1) = A (ix2 a0 a1) := by
  show A (((cfg0.win 14).blk t).view.emb (ix2 a0 a1)) = _
  rw [emb_p14]
/-- A parameter window reads its whole array: window 15. -/
theorem rd_p15 (A : S128x256.Idx → EReal) (t : Fin cfg0.N) (a0 : Fin 128) (a1 : Fin 256) :
    ((cfg0.win 15).blk t).view.read (Elt Ideal) A (ix2 a0 a1) = A (ix2 a0 a1) := by
  show A (((cfg0.win 15).blk t).view.emb (ix2 a0 a1)) = _
  rw [emb_p15]

/-! ## The staged blocks -/

variable (m : (ℓ : Loc nD τ sig) → Buf (Elt Ideal) ℓ)

/-- The block of `x`. -/
theorem blk_x (c : Dev nD) (t : Fin cfg0.N) (r : Fin 4000) (k : Fin 128) :
    iblk m c 0 t (ix2 r k) = (m ((c : Thread nD τ).loc main_arg0)) (ix2 (row t r) k) :=
  (rd_x (V m c (Pipeline.arrRef spec0 0)) t r k).trans (congrFun (V_main_arg0 m c) _)

/-- The block of the neighbour sums. -/
theorem blk_agg (c : Dev nD) (t : Fin cfg0.N) (r : Fin 4000) (k : Fin 128) :
    iblk m c 1 t (ix2 r k) = agg (m ((c : Thread nD τ).loc main_arg0)) (m ((c : Thread nD τ).loc main_arg1)) (ix2 (row t r) k) :=
  (rd_agg (V m c (Pipeline.arrRef spec0 1)) t r k).trans (congrFun (V_agg m c) _)

/-- A scalar reshaped to a `[1, 1]` matrix has the scalar as its one entry. -/
theorem scalar11 (x : S_.Idx → EReal) (h : S_.ShapeCasts S1x1) : shapeCast S1x1 x h (ix2 (0 : Fin 1) (0 : Fin 1)) = x ix0 := by
  unfold shapeCast
  exact congrArg x (funext fun a => a.elim0)

/-- The staged `eps`. -/
theorem blk_eps (c : Dev nD) (t : Fin cfg0.N) :
    iblk m c 2 t (ix2 (0 : Fin 1) (0 : Fin 1)) = (m ((c : Thread nD τ).loc main_arg2)) ix0 :=
  ((rd_p2 (V m c (Pipeline.arrRef spec0 2)) t 0 0).trans (congrFun (V_eps m c) _)).trans (scalar11 _ _)

/-- A staged weight matrix: window 3. -/
theorem blk_w3 (c : Dev nD) (t : Fin cfg0.N) (k : Fin 128) (q : Fin 256) :
    iblk m c 3 t (ix2 k q) = (m ((c : Thread nD τ).loc main_arg3)) (ix2 k q) :=
  (rd_p3 (V m c (Pipeline.arrRef spec0 3)) t k q).trans (congrFun (V_w3 m c) _)
/-- A staged weight matrix: window 9. -/
theorem blk_w9 (c : Dev nD) (t : Fin cfg0.N) (k : Fin 256) (q : Fin 256) :
    iblk m c 9 t (ix2 k q) = (m ((c : Thread nD τ).loc main_arg9)) (ix2 k q) :=
  (rd_p9 (V m c (Pipeline.arrRef spec0 9)) t k q).trans (congrFun (V_w9 m c) _)
/-- A staged weight matrix: window 15. -/
theorem blk_w15 (c : Dev nD) (t : Fin cfg0.N) (k : Fin 128) (q : Fin 256) :
    iblk m c 15 t (ix2 k q) = (m ((c : Thread nD τ).loc main_arg15)) (ix2 k q) :=
  (rd_p15 (V m c (Pipeline.arrRef spec0 15)) t k q).trans (congrFun (V_w15 m c) _)
/-- A staged per-column parameter: window 4. -/
theorem blk_r4 (c : Dev nD) (t : Fin cfg0.N) (q : Fin 256) :
    iblk m c 4 t (ix2 (0 : Fin 1) q) = (m ((c : Thread nD τ).loc main_arg4)) (ix1 q) :=
  ((rd_p4 (V m c (Pipeline.arrRef spec0 4)) t 0 q).trans (congrFun (V_row4 m c) _)).trans
    (shapeCast_a_1a_apply _ _ (0 : Fin 1) q)
/-- A staged per-column parameter: window 5. -/
theorem blk_r5 (c : Dev nD) (t : Fin cfg0.N) (q : Fin 256) :
    iblk m c 5 t (ix2 (0 : Fin 1) q) = (m ((c : Thread nD τ).loc main_arg5)) (ix1 q) :=
  ((rd_p5 (V m c (Pipeline.arrRef spec0 5)) t 0 q).trans (congrFun (V_row5 m c) _)).trans
    (shapeCast_a_1a_apply _ _ (0 : Fin 1) q)
/-- A staged per-column parameter: window 6. -/
theorem blk_r6 (c : Dev nD) (t : Fin cfg0.N) (q : Fin 256) :
    iblk m c 6 t (ix2 (0 : Fin 1) q) = (m ((c : Thread nD τ).loc main_arg6)) (ix1 q) :=
  ((rd_p6 (V m c (Pipeline.arrRef spec0 6)) t 0 q).trans (congrFun (V_row6 m c) _)).trans
    (shapeCast_a_1a_apply _ _ (0 : Fin 1) q)
/-- A staged per-column parameter: window 7. -/
theorem blk_r7 (c : Dev nD) (t : Fin cfg0.N) (q : Fin 256) :
    iblk m c 7 t (ix2 (0 : Fin 1) q) = (m ((c : Thread nD τ).loc main_arg7)) (ix1 q) :=
  ((rd_p7 (V m c (Pipeline.arrRef spec0 7)) t 0 q).trans (congrFun (V_row7 m c) _)).trans
    (shapeCast_a_1a_apply _ _ (0 : Fin 1) q)
/-- A staged per-column parameter: window 8. -/
theorem blk_r8 (c : Dev nD) (t : Fin cfg0.N) (q : Fin 256) :
    iblk m c 8 t (ix2 (0 : Fin 1) q) = (m ((c : Thread nD τ).loc main_arg8)) (ix1 q) :=
  ((rd_p8 (V m c (Pipeline.arrRef spec0 8)) t 0 q).trans (congrFun (V_row8 m c) _)).trans
    (shapeCast_a_1a_apply _ _ (0 : Fin 1) q)
/-- A staged per-column parameter: window 10. -/
theorem blk_r10 (c : Dev nD) (t : Fin cfg0.N) (q : Fin 256) :
    iblk m c 10 t (ix2 (0 : Fin 1) q) = (m ((c : Thread nD τ).loc main_arg10)) (ix1 q) :=
  ((rd_p10 (V m c (Pipeline.arrRef spec0 10)) t 0 q).trans (congrFun (V_row10 m c) _)).trans
    (shapeCast_a_1a_apply _ _ (0 : Fin 1) q)
/-- A staged per-column parameter: window 11. -/
theorem blk_r11 (c : Dev nD) (t : Fin cfg0.N) (q : Fin 256) :
    iblk m c 11 t (ix2 (0 : Fin 1) q) = (m ((c : Thread nD τ).loc main_arg11)) (ix1 q) :=
  ((rd_p11 (V m c (Pipeline.arrRef spec0 11)) t 0 q).trans (congrFun (V_row11 m c) _)).trans
    (shapeCast_a_1a_apply _ _ (0 : Fin 1) q)
/-- A staged per-column parameter: window 12. -/
theorem blk_r12 (c : Dev nD) (t : Fin cfg0.N) (q : Fin 256) :
    iblk m c 12 t (ix2 (0 : Fin 1) q) = (m ((c : Thread nD τ).loc main_arg12)) (ix1 q) :=
  ((rd_p12 (V m c (Pipeline.arrRef spec0 12)) t 0 q).trans (congrFun (V_row12 m c) _)).trans
    (shapeCast_a_1a_apply _ _ (0 : Fin 1) q)
/-- A staged per-column parameter: window 13. -/
theorem blk_r13 (c : Dev nD) (t : Fin cfg0.N) (q : Fin 256) :
    iblk m c 13 t (ix2 (0 : Fin 1) q) = (m ((c : Thread nD τ).loc main_arg13)) (ix1 q) :=
  ((rd_p13 (V m c (Pipeline.arrRef spec0 13)) t 0 q).trans (congrFun (V_row13 m c) _)).trans
    (shapeCast_a_1a_apply _ _ (0 : Fin 1) q)
/-- A staged per-column parameter: window 14. -/
theorem blk_r14 (c : Dev nD) (t : Fin cfg0.N) (q : Fin 256) :
    iblk m c 14 t (ix2 (0 : Fin 1) q) = (m ((c : Thread nD τ).loc main_arg14)) (ix1 q) :=
  ((rd_p14 (V m c (Pipeline.arrRef spec0 14)) t 0 q).trans (congrFun (V_row14 m c) _)).trans
    (shapeCast_a_1a_apply _ _ (0 : Fin 1) q)

end Cert.Gin.KernelBlocks

end
-- ==== Proof.KernelFinal.lean ====
/-
  The kernel's result array.

  What point `t` writes back is its block of `blockOut` of `x` and the neighbour sums: the body's result at an entry is
  `rowOut` of a row of the staged blocks, and each staged entry is an entry of an argument. The ten blocks of 4000 rows tile
  the 40000 rows (row `i` lies in block `i / 4000`), so after the run the result array is `blockOut` over all rows.
-/
import proofs.«174820_j90580860273090_1_alg».proof.Proof.KernelBlocks

noncomputable section

open scoped BigOperators
open Idealize.ShloMosaic Idealize.ShloMosaic.TcCoe Idealize.SL.Sem Idealize.ShloMosaic.ValueIdx Idealize.ShloMosaic.StableHlo

namespace Cert.Gin.KernelFinal

open Cert.KernelIdeal Cert.KernelIdeal.Gen Cert.KernelIdeal.Facts₀ Cert.Gin.KernelArr Cert.Gin.KernelBlocks
open Idealize.ShloMosaic.Pipeline (Dat)

variable (m : (ℓ : Loc nD τ sig) → Buf (Elt Ideal) ℓ) (ρ : Dev nD → PrngReg)

/-- The result array as a function of the arguments: `blockOut` of `x` and the neighbour sums, the parameters as given. -/
def result (c : Dev nD) : S40000x256.Idx → EReal :=
  blockOut ((m ((c : Thread nD τ).loc main_arg2)) ix0)
    (layerOfVecs (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (layerOfVecs (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
    (matOf (m ((c : Thread nD τ).loc main_arg15))) (m ((c : Thread nD τ).loc main_arg0)) (agg (m ((c : Thread nD τ).loc main_arg0)) (m ((c : Thread nD τ).loc main_arg1)))

theorem hz : (![0, 0] : Fin 2 → Nat) = fun _ => 0 := funext fun a => by fin_cases a <;> rfl

/-- The first layer's parameters, staged, are the arguments'. -/
theorem layer1_eq (c : Dev nD) (t : Fin cfg0.N) :
    layerOfRows (iblk m c 3 t) (iblk m c 4 t) (iblk m c 5 t) (iblk m c 6 t) (iblk m c 7 t) (iblk m c 8 t)
      = layerOfVecs (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hW : matOf (iblk m c 3 t) = matOf (m ((c : Thread nD τ).loc main_arg3)) := funext fun k => funext fun q => blk_w3 m c t k q
  have hb : ofRow (iblk m c 4 t) = ofVec (m ((c : Thread nD τ).loc main_arg4)) := funext fun q => blk_r4 m c t q
  have hg : ofRow (iblk m c 5 t) = ofVec (m ((c : Thread nD τ).loc main_arg5)) := funext fun q => blk_r5 m c t q
  have hbt : ofRow (iblk m c 6 t) = ofVec (m ((c : Thread nD τ).loc main_arg6)) := funext fun q => blk_r6 m c t q
  have hmu : ofRow (iblk m c 7 t) = ofVec (m ((c : Thread nD τ).loc main_arg7)) := funext fun q => blk_r7 m c t q
  have hvar : ofRow (iblk m c 8 t) = ofVec (m ((c : Thread nD τ).loc main_arg8)) := funext fun q => blk_r8 m c t q
  show Layer.mk _ _ _ _ _ _ = Layer.mk _ _ _ _ _ _
  rw [hW, hb, hg, hbt, hmu, hvar]

/-- The second layer's. -/
theorem layer2_eq (c : Dev nD) (t : Fin cfg0.N) :
    layerOfRows (iblk m c 9 t) (iblk m c 10 t) (iblk m c 11 t) (iblk m c 12 t) (iblk m c 13 t) (iblk m c 14 t)
      = layerOfVecs (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have hW : matOf (iblk m c 9 t) = matOf (m ((c : Thread nD τ).loc main_arg9)) := funext fun k => funext fun q => blk_w9 m c t k q
  have hb : ofRow (iblk m c 10 t) = ofVec (m ((c : Thread nD τ).loc main_arg10)) := funext fun q => blk_r10 m c t q
  have hg : ofRow (iblk m c 11 t) = ofVec (m ((c : Thread nD τ).loc main_arg11)) := funext fun q => blk_r11 m c t q
  have hbt : ofRow (iblk m c 12 t) = ofVec (m ((c : Thread nD τ).loc main_arg12)) := funext fun q => blk_r12 m c t q
  have hmu : ofRow (iblk m c 13 t) = ofVec (m ((c : Thread nD τ).loc main_arg13)) := funext fun q => blk_r13 m c t q
  have hvar : ofRow (iblk m c 14 t) = ofVec (m ((c : Thread nD τ).loc main_arg14)) := funext fun q => blk_r14 m c t q
  show Layer.mk _ _ _ _ _ _ = Layer.mk _ _ _ _ _ _
  rw [hW, hb, hg, hbt, hmu, hvar]

/-- The residual projection's. -/
theorem wres_eq (c : Dev nD) (t : Fin cfg0.N) : matOf (iblk m c 15 t) = matOf (m ((c : Thread nD τ).loc main_arg15)) :=
  funext fun k => funext fun q => blk_w15 m c t k q

/-- Row `r` of point `t`'s block of `x` is row `row t r` of `x`. -/
theorem xrow_eq (c : Dev nD) (t : Fin cfg0.N) (r : Fin 4000) : rowOf (iblk m c 0 t) r = rowOf (m ((c : Thread nD τ).loc main_arg0)) (row t r) :=
  funext fun k => blk_x m c t r k

/-- The same of the neighbour sums. -/
theorem aggrow_eq (c : Dev nD) (t : Fin cfg0.N) (r : Fin 4000) :
    rowOf (iblk m c 1 t) r = rowOf (agg (m ((c : Thread nD τ).loc main_arg0)) (m ((c : Thread nD τ).loc main_arg1))) (row t r) :=
  funext fun k => blk_agg m c t r k

/-- WHAT POINT `t` WRITES BACK is its block of `result`. -/
theorem flushed_eq (c : Dev nD) (t : Fin cfg0.N) :
    (dats m 0 c).flushed 16 t = ((cfg0.win 16).blk t).view.read (Elt Ideal) (result m c) := by
  rw [Cert.KernelIdeal.Value.flushed16]
  unfold out0_16
  rw [View.canon_unit_zero hz]
  simp only [View.ld_unit_zero (S := S4000x128) hz, View.ld_unit_zero (S := S1x1) hz, View.ld_unit_zero (S := S128x256) hz,
    View.ld_unit_zero (S := S1x256) hz, View.ld_unit_zero (S := S256x256) hz]
  funext j
  obtain ⟨r, q, rfl⟩ : ∃ (r : Fin 4000) (q : Fin 256), j = ix2 r q := ⟨j 0, j 1, eq_ix2 j⟩
  rw [cut_out, rd_out]
  refine (KernelRow.body_apply (iblk m c 0 t) (iblk m c 1 t) (iblk m c 2 t) (iblk m c 3 t) (iblk m c 4 t) (iblk m c 7 t) (iblk m c 8 t) (iblk m c 5 t) (iblk m c 6 t)
    (iblk m c 9 t) (iblk m c 10 t) (iblk m c 13 t) (iblk m c 14 t) (iblk m c 11 t) (iblk m c 12 t) (iblk m c 15 t) r q).trans ?_
  rw [blk_eps, layer1_eq, layer2_eq, wres_eq, xrow_eq, aggrow_eq]
  rfl

/-- An index of the result array is in point `t`'s block iff each coordinate is in the block's range on its axis. -/
theorem mem_blk (t : Fin cfg0.N) (i : S40000x256.Idx) :
    i ∈ ((cfg0.win 16).blk t).view.set ↔ ∀ a : Fin 2, win0_16.index t a * S4000x256.size a ≤ (i a).val
      ∧ (i a).val < win0_16.index t a * S4000x256.size a + S4000x256.size a := by
  show i ∈ ((View.whole main_v28).slice (win0_16.rect t)).set ↔ _
  rw [View.set_slice_whole, Rect.mem_set_unit]
  exact Iff.rfl

/-- THE BLOCKS TILE THE ARRAY: row `i` lies in the block of point `i / 4000`. -/
theorem cover (i : S40000x256.Idx) : ∃ t : Fin cfg0.N, (cfg0.win 16).flush t = true ∧ i ∈ ((cfg0.win 16).blk t).view.set := by
  have hi0 : (i 0).val < 40000 := (i 0).isLt
  have hi1 : (i 1).val < 256 := (i 1).isLt
  have hN : (i 0).val / 4000 < grid0.N := by rw [N_0]; omega
  obtain ⟨e0, e1⟩ := idx_out ⟨(i 0).val / 4000, hN⟩
  refine ⟨⟨(i 0).val / 4000, hN⟩, flush0_16 _, ?_⟩
  rw [mem_blk]
  intro a
  match a with
  | ⟨0, _⟩ =>
    show win0_16.index ⟨(i 0).val / 4000, hN⟩ (0 : Fin 2) * 4000 ≤ (i 0).val
      ∧ (i 0).val < win0_16.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_16.index ⟨(i 0).val / 4000, hN⟩ (1 : Fin 2) * 256 ≤ (i 1).val
      ∧ (i 1).val < win0_16.index ⟨(i 0).val / 4000, hN⟩ (1 : Fin 2) * 256 + 256
    rw [e1]; omega

/-- THE RESULT ARRAY after the run. -/
theorem final (c : Dev nD) : (dats m 0 c).arrAt 16 cfg0.N = result m c :=
  (dats m 0 c).arrAt_eq_of_cover 16 (result m c) (fun t _ => flushed_eq m c t) cover

/-- The kernel's run, re-posted: the result array at `result`, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Cert.KernelIdeal.Value.run_blocks m ρ)

end Cert.Gin.KernelFinal

end
-- ==== Proof.RefRow.lean ====
/-
  The reference, read at one entry.

  The reference's @main is a straight line of host operations; each is read at an index from its operands at an index, a
  matrix product as a sum over the contracted coordinate, a parameter vector spread over the rows as the vector at its
  column, the scalar `1 + eps` spread over the matrix as itself. Chained, entry `(p, q)` of the result is `rowOut` of row `p`
  of `x` and of the neighbour sums: the result array is `blockOut` over all 40000 rows. The neighbour sums (a gather and a
  scatter-add, whose reads depend on the edge list's values) are left as the one array they are.
-/
import proofs.«174820_j90580860273090_1_alg».proof.Proof.Gen.ReferenceIdeal.Read
import proofs.«174820_j90580860273090_1_alg».proof.Proof.RowSpec

noncomputable section

open scoped BigOperators
open Idealize.ShloMosaic Idealize.ShloMosaic.ValueIdx

namespace Cert.Gin.RefRow

open Cert.ReferenceIdeal Cert.ReferenceIdeal.Read

/-- Two index functions of a rank-2 shape agree when their coordinates do. -/
local macro "idx2" : tactic => `(tactic| (funext a; apply Fin.ext; match a with | ⟨0, _⟩ => rfl | ⟨1, _⟩ => rfl))
/-- The same for rank 1. -/
local macro "idx1" : tactic => `(tactic| (funext a; apply Fin.ext; match a with | ⟨0, _⟩ => rfl))

/-! ## Where each product reads its operands: row `i 0` of the left, column `i 1` of the right, at the contracted `k` -/

theorem lidx18 (p : Fin 40000) (q : Fin 256) (k : Fin 128) : lidx_main_v18 (ix2 p q) k = ix2 p k := by idx2
theorem ridx18 (p : Fin 40000) (q : Fin 256) (k : Fin 128) : ridx_main_v18 (ix2 p q) k = ix2 k q := by idx2
theorem lidx38 (p : Fin 40000) (q : Fin 256) (k : Fin 256) : lidx_main_v38 (ix2 p q) k = ix2 p k := by idx2
theorem ridx38 (p : Fin 40000) (q : Fin 256) (k : Fin 256) : ridx_main_v38 (ix2 p q) k = ix2 k q := by idx2
theorem lidx58 (p : Fin 40000) (q : Fin 256) (k : Fin 128) : lidx_main_v58 (ix2 p q) k = ix2 p k := by idx2
theorem ridx58 (p : Fin 40000) (q : Fin 256) (k : Fin 128) : ridx_main_v58 (ix2 p q) k = ix2 k q := by idx2

/-! ## Where a parameter vector, spread over the rows through a one-row matrix, is read: at the column -/

theorem col_19_20 (p : Fin 40000) (q : Fin 256) : idx_main_v19 (idx_main_v20 (ix2 p q)) = ix1 q := by idx1
theorem col_22_23 (p : Fin 40000) (q : Fin 256) : idx_main_v22 (idx_main_v23 (ix2 p q)) = ix1 q := by idx1
theorem col_28_29 (p : Fin 40000) (q : Fin 256) : idx_main_v28 (idx_main_v29 (ix2 p q)) = ix1 q := by idx1
theorem col_31_32 (p : Fin 40000) (q : Fin 256) : idx_main_v31 (idx_main_v32 (ix2 p q)) = ix1 q := by idx1
theorem col_34_35 (p : Fin 40000) (q : Fin 256) : idx_main_v34 (idx_main_v35 (ix2 p q)) = ix1 q := by idx1
theorem col_39_40 (p : Fin 40000) (q : Fin 256) : idx_main_v39 (idx_main_v40 (ix2 p q)) = ix1 q := by idx1
theorem col_42_43 (p : Fin 40000) (q : Fin 256) : idx_main_v42 (idx_main_v43 (ix2 p q)) = ix1 q := by idx1
theorem col_48_49 (p : Fin 40000) (q : Fin 256) : idx_main_v48 (idx_main_v49 (ix2 p q)) = ix1 q := by idx1
theorem col_51_52 (p : Fin 40000) (q : Fin 256) : idx_main_v51 (idx_main_v52 (ix2 p q)) = ix1 q := by idx1
theorem col_54_55 (p : Fin 40000) (q : Fin 256) : idx_main_v54 (idx_main_v55 (ix2 p q)) = ix1 q := by idx1

/-- THE REFERENCE'S RESULT is `blockOut` over all rows, of `x` and the neighbour sums, with the parameters as given. -/
theorem result_eq (x0 : (⟨S40000x128, .f32⟩ : BufTy).Contents (Elt Ideal)) (x1 : (⟨S2x640000, .i32⟩ : BufTy).Contents (Elt Ideal))
    (x2 : (⟨S_, .f32⟩ : BufTy).Contents (Elt Ideal)) (x3 : (⟨S128x256, .f32⟩ : BufTy).Contents (Elt Ideal))
    (x4 x5 x6 x7 x8 : (⟨S256, .f32⟩ : BufTy).Contents (Elt Ideal)) (x9 : (⟨S256x256, .f32⟩ : BufTy).Contents (Elt Ideal))
    (x10 x11 x12 x13 x14 : (⟨S256, .f32⟩ : BufTy).Contents (Elt Ideal)) (x15 : (⟨S128x256, .f32⟩ : BufTy).Contents (Elt Ideal)) :
    val_main_v60 (F := Ideal) x0 x1 x2 x3 x4 x5 x6 x7 x8 x9 x10 x11 x12 x13 x14 x15
      = blockOut (x2 ix0) (layerOfVecs x3 x4 x5 x6 x7 x8) (layerOfVecs x9 x10 x11 x12 x13 x14) (matOf x15) x0
          (val_main_v13 (F := Ideal) x0 x1) := by
  funext j
  obtain ⟨p, q, rfl⟩ : ∃ (p : Fin 40000) (q : Fin 256), j = ix2 p q := ⟨j 0, j 1, eq_ix2 j⟩
  simp only [val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_cst_1_apply, val_main_cst_2_apply, val_main_cst_3_apply, val_main_call0_v0_apply, val_main_call0_cst_apply, val_main_call1_v0_apply, val_main_call1_cst_apply, val_main_call2_v0_apply, val_main_call2_cst_apply,
    lidx18, ridx18, lidx38, ridx38, lidx58, ridx58, col_19_20, col_22_23, col_28_29, col_31_32, col_34_35, col_39_40, col_42_43, col_48_49, col_51_52, col_54_55]
  rfl

end Cert.Gin.RefRow

end
-- ==== Proof.AggRef.lean ====
/-
  The reference's neighbour sums are the kernel's.

  Both programs compute them by the same host operations over the same shapes (the source rows gathered, then scatter-added
  at the destinations into zeros); each program's text names its own copy of the shapes and of the gather's and the scatter's
  dimension numbers, and the copies hold the same numbers. So the two arrays are one term.
-/
import proofs.«174820_j90580860273090_1_alg».proof.Proof.Gen.ReferenceIdeal.Read
import proofs.«174820_j90580860273090_1_alg».proof.Proof.Agg

noncomputable section

open Idealize.ShloMosaic

namespace Cert.Gin

/-- The reference's scatter-add of the gathered rows is `agg`. -/
theorem ref_agg_eq (x : FVec Ideal Cert.KernelIdeal.S40000x128 .f32) (ei : IVec Cert.KernelIdeal.S2x640000 32) :
    Cert.ReferenceIdeal.Read.val_main_v13 (F := Ideal) x ei = agg x ei := rfl

end Cert.Gin

end
-- ==== Proof.lean ====
/-
  A GIN block — two dense layers with inference batch-norm and relu on `(1 + eps) · x + agg`, a residual projection of `x`, a
  last relu — as a row-blocked kernel and as plain array code: the two compute the same extended reals.

  Both programs form the neighbour sums `agg` by the same host operations (Proof/Agg.lean, Proof/AggRef.lean). The kernel
  then runs ten grid points over blocks of 4000 rows; the reference runs whole-array operations. An output row depends only
  on the same row of `x` and of `agg`, so both are one row-local function (Proof/RowSpec.lean): the kernel's body read at an
  entry of its block (Proof/KernelRow.lean: the matrix products into zero accumulators are sums over the feature axis, the
  narrower float format is the identity), the blocks laid side by side into the array (Proof/KernelArr.lean,
  Proof/KernelBlocks.lean, Proof/KernelFinal.lean), and the reference read at an entry of its array (Proof/RefRow.lean).
  No law of arithmetic is needed beyond that: the two sides group every sum and product alike, so the precondition is
  never opened.
-/
import proofs.«174820_j90580860273090_1_alg».proof.Defs
import proofs.«174820_j90580860273090_1_alg».proof.Proof.Gen.Kernel
import proofs.«174820_j90580860273090_1_alg».proof.Proof.Gen.Kernel.Skeleton
import proofs.«174820_j90580860273090_1_alg».proof.Proof.Gen.Kernel.Launch
import proofs.«174820_j90580860273090_1_alg».proof.Proof.Gen.Kernel.Points
import proofs.«174820_j90580860273090_1_alg».proof.Proof.Gen.Kernel.Frame
import proofs.«174820_j90580860273090_1_alg».proof.Proof.Gen.KernelIdeal
import proofs.«174820_j90580860273090_1_alg».proof.Proof.Gen.KernelIdeal.Skeleton
import proofs.«174820_j90580860273090_1_alg».proof.Proof.Gen.KernelIdeal.Launch
import proofs.«174820_j90580860273090_1_alg».proof.Proof.Gen.KernelIdeal.Points
import proofs.«174820_j90580860273090_1_alg».proof.Proof.Gen.KernelIdeal.Frame
import proofs.«174820_j90580860273090_1_alg».proof.Proof.Gen.ReferenceIdeal
import proofs.«174820_j90580860273090_1_alg».proof.Proof.Gen.Pre_finite_inputs
import proofs.«174820_j90580860273090_1_alg».proof.Proof.Gen.KernelIdeal.Value
import proofs.«174820_j90580860273090_1_alg».proof.Proof.Gen.ReferenceIdeal.Run
import proofs.«174820_j90580860273090_1_alg».proof.Proof.Gen.ReferenceIdeal.Read
import proofs.«174820_j90580860273090_1_alg».proof.Proof.KernelFinal
import proofs.«174820_j90580860273090_1_alg».proof.Proof.RefRow
import proofs.«174820_j90580860273090_1_alg».proof.Proof.AggRef
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- And the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both programs end with `blockOut` of `x` and the neighbour sums: the kernel's
    result array block by block, the reference's entry by entry, and the neighbour sums are one term on both sides. -/
theorem algebraic : Cert.algebraic_KernelIdeal_ReferenceIdeal := by
  intro m ρ m' ρ' _ hagree
  refine ⟨fun c => Cert.Gin.KernelFinal.result m c, Cert.Gin.KernelFinal.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v60_eq, Cert.Gin.RefRow.result_eq, h0, h1, h2, h3, h4, h5, h6, h7, h8, h9, h10, h11, h12, h13, h14, h15, Cert.Gin.ref_agg_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
